-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x3 : Shape := ⟨2, ![3200000, 3]⟩
abbrev S3200000 : Shape := ⟨1, ![3200000]⟩
abbrev S2x3200000 : Shape := ⟨2, ![2, 3200000]⟩
abbrev S100000 : Shape := ⟨1, ![100000]⟩
abbrev S_ : Shape := ⟨0, ![]⟩

class Facts : Prop where
  bcast_S_S3200000x3 : S_.BroadcastsInDim S3200000x3 (![] : Fin 0 → Fin S3200000x3.rank)
  reducesTo_S3200000x3_S_d0_1 : S3200000x3.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S3200000x3 .f32) (main_arg1 : FVec F S3200000 .f32) (main_arg2 : FVec F S3200000 .f32) (main_arg3 : IVec S2x3200000 32) (main_arg4 : IVec S100000 32) : IVec S_ 1 :=
  let main_v0 : FVec F S3200000x3 .f32 := Host.absf main_arg0
  let main_cst : FVec F S_ .f32 := constant S_ .f32 0x7F800000#32
  let main_v1 : FVec F S3200000x3 .f32 := broadcastInDim S3200000x3 ![] bcast_S_S3200000x3 main_cst
  let main_v2 : IVec S3200000x3 1 := cmpf .olt main_v0 main_v1
  let main_c : IVec S_ 1 := constantI S_ 1 1#1
  let main_v3 : IVec S_ 1 := (fun x v => Host.reduce IntOp.andi x v reducesTo_S3200000x3_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  main_v13
-- ==== Kernel.lean ====
abbrev S3200000x3 : Shape := ⟨2, ![3200000, 3]⟩
abbrev S3200000 : Shape := ⟨1, ![3200000]⟩
abbrev S2x3200000 : Shape := ⟨2, ![2, 3200000]⟩
abbrev S100000 : Shape := ⟨1, ![100000]⟩
abbrev S3x3200000 : Shape := ⟨2, ![3, 3200000]⟩
abbrev S1x3200000 : Shape := ⟨2, ![1, 3200000]⟩
abbrev S3x80000 : Shape := ⟨2, ![3, 80000]⟩
abbrev S1x80000 : Shape := ⟨2, ![1, 80000]⟩
abbrev S_ : Shape := ⟨0, ![]⟩
abbrev S100000x3 : Shape := ⟨2, ![100000, 3]⟩
abbrev S3200000x1 : Shape := ⟨2, ![3200000, 1]⟩

abbrev nBuf : Space → Nat
  | .hbm => 23
  | .vmem => 8
  | .smem => 0
  | _ => 0

abbrev bufTy : (tb : Table) → Fin (tcTables nBuf tb) → BufTy
  | .hbm, ⟨0, _⟩ => ⟨S3200000x3, .f32⟩
  | .hbm, ⟨1, _⟩ => ⟨S3200000, .f32⟩
  | .hbm, ⟨2, _⟩ => ⟨S3200000, .f32⟩
  | .hbm, ⟨3, _⟩ => ⟨S2x3200000, .i32⟩
  | .hbm, ⟨4, _⟩ => ⟨S100000, .i32⟩
  | .hbm, ⟨5, _⟩ => ⟨S3x3200000, .f32⟩
  | .hbm, ⟨6, _⟩ => ⟨S1x3200000, .f32⟩
  | .hbm, ⟨7, _⟩ => ⟨S1x3200000, .f32⟩
  | .hbm, ⟨8, _⟩ => ⟨S3x3200000, .f32⟩
  | .hbm, ⟨9, _⟩ => ⟨S3200000x3, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S100000x3, .f32⟩
  | .hbm, ⟨16, _⟩ => ⟨S3200000x1, .i32⟩
  | .hbm, ⟨17, _⟩ => ⟨S100000x3, .f32⟩
  | .hbm, ⟨18, _⟩ => ⟨S_, .f32⟩
  | .hbm, ⟨19, _⟩ => ⟨S100000x3, .f32⟩
  | .hbm, ⟨20, _⟩ => ⟨S3200000x1, .i32⟩
  | .hbm, ⟨21, _⟩ => ⟨S100000x3, .f32⟩
  | .hbm, ⟨22, _⟩ => ⟨S100000x3, .f32⟩
  | .local _ .vmem, ⟨0, _⟩ => ⟨S3x80000, .f32⟩
  | .local _ .vmem, ⟨1, _⟩ => ⟨S3x80000, .f32⟩
  | .local _ .vmem, ⟨2, _⟩ => ⟨S1x80000, .f32⟩
  | .local _ .vmem, ⟨3, _⟩ => ⟨S1x80000, .f32⟩
  | .local _ .vmem, ⟨4, _⟩ => ⟨S1x80000, .f32⟩
  | .local _ .vmem, ⟨5, _⟩ => ⟨S1x80000, .f32⟩
  | .local _ .vmem, ⟨6, _⟩ => ⟨S3x80000, .f32⟩
  | .local _ .vmem, ⟨7, _⟩ => ⟨S3x80000, .f32⟩
  | _, _ => ⟨S3200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S3200000x3_S3x3200000_1_0 : S3200000x3.Transposes [1, 0] S3x3200000
  shapeCasts_S3200000_S1x3200000 : S3200000.ShapeCasts S1x3200000
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  slices_S3x80000_o0_0_S1x80000 : S3x80000.Slices ![0, 0] S1x80000
  slices_S3x80000_o1_0_S1x80000 : S3x80000.Slices ![1, 0] S1x80000
  slices_S3x80000_o2_0_S1x80000 : S3x80000.Slices ![2, 0] S1x80000
  broadcasts_S1x80000_S3x80000 : S1x80000.Broadcasts S3x80000
  transposes_S3x3200000_S3200000x3_1_0 : S3x3200000.Transposes [1, 0] S3200000x3
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  scatter_S100000x3_S3200000x1_S3200000x3_1_0_0_1_wf : ScatterDims.WF S100000x3 S3200000x1 S3200000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x3200000.size a
  hwx0_0 : ∀ i : grid0.Coords, EltTy.bits .f32 = 32 ∨ (Rect.block (s := S3x3200000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x3200000.size a
  hwx0_1 : ∀ i : grid0.Coords, EltTy.bits .f32 = 32 ∨ (Rect.block (s := S1x3200000) S1x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80000.size a ≤ S1x3200000.size a
  hwx0_2 : ∀ i : grid0.Coords, EltTy.bits .f32 = 32 ∨ (Rect.block (s := S1x3200000) S1x80000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x80000.size a ≤ S3x3200000.size a
  hwx0_3 : ∀ i : grid0.Coords, EltTy.bits .f32 = 32 ∨ (Rect.block (s := S3x3200000) S3x80000.size (cc0_transform_3 i) (hinb0_3 i)).WholeWords (EltTy.packing .f32)

variable [Facts₀]

def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

abbrev win0_0 : Pipeline.Window sig grid0 :=
  Pipeline.Window.ofSpec (Memref.whole main_v0) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x80000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3200000x3 : Shape := ⟨2, ![3200000, 3]⟩
abbrev S3200000 : Shape := ⟨1, ![3200000]⟩
abbrev S2x3200000 : Shape := ⟨2, ![2, 3200000]⟩
abbrev S100000 : Shape := ⟨1, ![100000]⟩
abbrev S_ : Shape := ⟨0, ![]⟩
abbrev S1x3200000 : Shape := ⟨2, ![1, 3200000]⟩
abbrev S100000x3 : Shape := ⟨2, ![100000, 3]⟩
abbrev S3200000x1 : Shape := ⟨2, ![3200000, 1]⟩

abbrev nBuf : Space → Nat
  | .hbm => 40
  | .vmem => 0
  | .smem => 0
  | _ => 0

abbrev bufTy : (tb : Table) → Fin (tcTables nBuf tb) → BufTy
  | .hbm, ⟨0, _⟩ => ⟨S3200000x3, .f32⟩
  | .hbm, ⟨1, _⟩ => ⟨S3200000, .f32⟩
  | .hbm, ⟨2, _⟩ => ⟨S3200000, .f32⟩
  | .hbm, ⟨3, _⟩ => ⟨S2x3200000, .i32⟩
  | .hbm, ⟨4, _⟩ => ⟨S100000, .i32⟩
  | .hbm, ⟨5, _⟩ => ⟨S3200000x3, .f32⟩
  | .hbm, ⟨6, _⟩ => ⟨S_, .f32⟩
  | .hbm, ⟨7, _⟩ => ⟨S3200000, .f32⟩
  | .hbm, ⟨8, _⟩ => ⟨S3200000, .f32⟩
  | .hbm, ⟨9, _⟩ => ⟨S3200000, .f32⟩
  | .hbm, ⟨10, _⟩ => ⟨S3200000, .f32⟩
  | .hbm, ⟨11, _⟩ => ⟨S3200000, .f32⟩
  | .hbm, ⟨12, _⟩ => ⟨S3200000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S3200000, .f32⟩
  | .hbm, ⟨17, _⟩ => ⟨S3200000, .f32⟩
  | .hbm, ⟨18, _⟩ => ⟨S3200000, .f32⟩
  | .hbm, ⟨19, _⟩ => ⟨S3200000, .f32⟩
  | .hbm, ⟨20, _⟩ => ⟨S3200000, .f32⟩
  | .hbm, ⟨21, _⟩ => ⟨S3200000, .f32⟩
  | .hbm, ⟨22, _⟩ => ⟨S3200000x3, .f32⟩
  | .hbm, ⟨23, _⟩ => ⟨S3200000x3, .f32⟩
  | .hbm, ⟨24, _⟩ => ⟨S3200000x3, .f32⟩
  | .hbm, ⟨25, _⟩ => ⟨S3200000x3, .f32⟩
  | .hbm, ⟨26, _⟩ => ⟨S3200000x3, .f32⟩
  | .hbm, ⟨27, _⟩ => ⟨S1x3200000, .i32⟩
  | .hbm, ⟨28, _⟩ => ⟨S3200000, .i32⟩
  | .hbm, ⟨29, _⟩ => ⟨S_, .f32⟩
  | .hbm, ⟨30, _⟩ => ⟨S100000x3, .f32⟩
  | .hbm, ⟨31, _⟩ => ⟨S3200000x1, .i32⟩
  | .hbm, ⟨32, _⟩ => ⟨S100000x3, .f32⟩
  | .hbm, ⟨33, _⟩ => ⟨S1x3200000, .i32⟩
  | .hbm, ⟨34, _⟩ => ⟨S3200000, .i32⟩
  | .hbm, ⟨35, _⟩ => ⟨S_, .f32⟩
  | .hbm, ⟨36, _⟩ => ⟨S100000x3, .f32⟩
  | .hbm, ⟨37, _⟩ => ⟨S3200000x1, .i32⟩
  | .hbm, ⟨38, _⟩ => ⟨S100000x3, .f32⟩
  | .hbm, ⟨39, _⟩ => ⟨S100000x3, .f32⟩
  | _, _ => ⟨S3200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S3200000x3_S3200000_d1 : S3200000x3.ReducesTo [1] S3200000
  h_S_ : 0 < S_.numel
  reducesTo_S3200000_S_d0 : S3200000.ReducesTo [0] S_
  bcast_S_S3200000 : S_.BroadcastsInDim S3200000 (![] : Fin 0 → Fin S3200000.rank)
  bcast_S3200000_S3200000x3_0 : S3200000.BroadcastsInDim S3200000x3 (![0] : Fin 1 → Fin S3200000x3.rank)
  slices_S2x3200000_S1x3200000_0_0 : S2x3200000.Slices ![0, 0] S1x3200000
  shapeCasts_S1x3200000_S3200000 : S1x3200000.ShapeCasts S3200000
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  slices_S2x3200000_S1x3200000_1_0 : S2x3200000.Slices ![1, 0] S1x3200000
  scatter_S100000x3_S3200000x1_S3200000x3_1_0_0_1_wf : ScatterDims.WF S100000x3 S3200000x1 S3200000x3 [1] [0] [0] 1

variable [Facts₀]

def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.Reals.lean ====
/-
  Extended reals that are real numbers, and the three float literals of the two programs.

  An extended real whose absolute value `max x (-x)` lies strictly below `+∞` is a real number: this is what the
  precondition's comparison `|x| < +∞` says of one element. The literals `0.0`, `1.0` and `2.0` denote the reals
  `0`, `1` and `2`.
-/
import Idealize.ShloMosaic.PureOps.Ideal
import Idealize.ShloMosaic.PureOps.Ideal.Laws
import Idealize.ShloMosaic.PureOps.Vector

noncomputable section

namespace Cert.Force

open Idealize.ShloMosaic

/-- `max x (-x) < +∞` excludes both infinities. -/
theorem real_of_abs_lt_top (x : EReal) (h : max x (-x) < ⊤) : ∃ r : ℝ, x = (r : EReal) := by
  induction x using EReal.rec with
  | bot => simp at h
  | top => simp at h
  | coe r => exact ⟨r, rfl⟩

/-- The word `0x7F800000` is `+∞`. -/
theorem ofBits_inf : Ideal.ofBits .f32 0x7F800000#32 = ⊤ := by simp [Ideal.ofBits, Ideal.ieee]

/-- The word `0x3F800000` is the real `1`. -/
theorem ofBits_one : Ideal.ofBits .f32 0x3F800000#32 = ((1 : ℝ) : EReal) := by
  simp [Ideal.ofBits, Ideal.ieee, -EReal.coe_mul]; norm_num

/-- The word `0x40000000` is the real `2`. -/
theorem ofBits_two : Ideal.ofBits .f32 0x40000000#32 = ((2 : ℝ) : EReal) := by
  simp [Ideal.ofBits, Ideal.ieee, -EReal.coe_mul]; norm_num

/-- One element of the printed test `|x| < +∞`: where the comparison's bit is set, the element is a real number. -/
theorem real_of_cmp {s : Shape} (x y : FVec Ideal s .f32) (hy : ∀ i, y i = ⊤) (i : s.Idx)
    (h : cmpf .olt (Host.absf x) y i = 1#1) : ∃ r : ℝ, x i = (r : EReal) := by
  refine real_of_abs_lt_top (x i) ?_
  unfold cmpf Host.absf at h
  rw [Ideal.hostAbsf_def, Ideal.absf_def, Ideal.cmpf_def, hy i] at h
  by_contra hlt
  simp [Ideal.cmp, hlt] at h

end Cert.Force

end
-- ==== Proof.Finite.lean ====
/-
  The precondition read back: every entry of the three float inputs is a real number.

  The precondition is the conjunction of three `jnp.all(|x| < +∞)`, one per float input. Its value `1` splits into the
  three reductions by `and` being `1`; a reduction by `and` over all axes that is `1` met only `1`s; and an entry
  whose test `|x| < +∞` is `1` is neither infinity.
-/
import proofs.«114977_j8821862826155_1_alg».proof.Pre_finite_inputs
import proofs.«114977_j8821862826155_1_alg».proof.Proof.Reals
import Idealize.ShloMosaic.Lib.ReduceAll
import Idealize.ShloMosaic.Lib.ValueIdx

noncomputable section

namespace Cert.Force

open Idealize.ShloMosaic Idealize.ShloMosaic.ValueIdx Cert.Pre_finite_inputs

/-- The scalar shape has one index. -/
instance subsingleton_scalarIdx : Subsingleton S_.Idx := ⟨fun _ _ => funext fun d => d.elim0⟩

/-- Under the precondition every entry of the displacements and of both coefficient arrays is a real number. -/
theorem reals_of_pre [Cert.Pre_finite_inputs.Facts] (d : FVec Ideal S3200000x3 .f32) (a b : FVec Ideal S3200000 .f32)
    (ei : IVec S2x3200000 32) (an : IVec S100000 32)
    (h : Cert.Pre_finite_inputs.fn (F := Ideal) d a b ei an = fun _ => 1#1) :
    (∀ i, ∃ r : ℝ, d i = (r : EReal)) ∧ (∀ i, ∃ r : ℝ, a i = (r : EReal)) ∧ (∀ i, ∃ r : ℝ, b i = (r : EReal)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨fun i => real_of_cmp d _ (fun _ => ofBits_inf) i (Host.reduce_andi_all _ _ _ _ ix0 h1 i),
    fun i => real_of_cmp a _ (fun _ => ofBits_inf) i (Host.reduce_andi_all _ _ _ _ ix0 h2 i),
    fun i => real_of_cmp b _ (fun _ => ofBits_inf) i (Host.reduce_andi_all _ _ _ _ ix0 h3 i)⟩

end Cert.Force

end
-- ==== Proof.Force.lean ====
/-
  The per-edge force, in the two arrangements the programs compute it in, and the law that joins them.

  For one edge with displacement `(d₀, d₁, d₂)`, coefficients `a`, `b` and squared length `r² = d₀² + d₁² + d₂²`, the
  energy `a·r² + b·exp(-r²)` has gradient `2·dₖ·(a - b·exp(-r²))` in `dₖ`, so the force component is
  `2·dₖ·(b·exp(-r²) - a)`.

  * The kernel evaluates the closed form: `dₖ · (2 · (b · exp(0 - ((d₀² + d₁²) + d₂²)) - a))`.
  * The reference is reverse-mode differentiation spelled out: with `g = -((b·1)·exp(-(0 + Σₖ dₖ²))) + a·1` the cotangent
    of `r²`, the product rule on `dₖ·dₖ` gives `dₖ·g + g·dₖ`, and the result is its negation.

  On real numbers both are the same polynomial in `dₖ, a, b` and `exp(-r²)`. On the extended reals the two
  differ at infinities (a product is distributed over a sum), so the law is stated for real inputs.
-/
import Idealize.ShloMosaic.PureOps.Ideal
import Idealize.ShloMosaic.PureOps.Ideal.Laws
import Idealize.ShloMosaic.Lib.ValueIdx
import proofs.«114977_j8821862826155_1_alg».proof.Proof.Reals

noncomputable section

namespace Cert.Force

open Idealize.ShloMosaic Idealize.ShloMosaic.ValueIdx

/-- The kernel's arrangement of one force component `x = dₖ` of an edge: the closed form, with the literals `0.0`
    and `2.0` as the words the kernel holds. -/
def forceClosed (x d0 d1 d2 a b : EReal) : EReal :=
  x * (Ideal.ofBits .f32 0x40000000#32
    * (b * Ideal.exp (Ideal.ofBits .f32 0x00000000#32 - ((d0 * d0 + d1 * d1) + d2 * d2)) - a))

/-- The reference's arrangement of the cotangent of the squared length: `-((b·1)·exp(-(0 + Σₖ dₖ²))) + a·1`. -/
def cotangent (d : Fin 3 → EReal) (a b : EReal) : EReal :=
  -((b * Ideal.ofBits .f32 0x3F800000#32)
      * Ideal.exp (-(Ideal.ofBits .f32 0x00000000#32 + ∑ k : Fin 3, d k * d k)))
    + a * Ideal.ofBits .f32 0x3F800000#32

/-- The reference's arrangement of one force component: the negated product rule. -/
def forceBackprop (x : EReal) (d : Fin 3 → EReal) (a b : EReal) : EReal :=
  -(x * cotangent d a b + cotangent d a b * x)

/-- On real inputs the two arrangements agree: everything is a real number, where `exp` is the real exponential,
    `-(0 + s) = 0 - s`, and `-(x·g + g·x) = x·(2·(b·e - a))` for `g = -(b·e) + a`. -/
theorem forceBackprop_eq_forceClosed (x a b : ℝ) (d : Fin 3 → ℝ) :
    forceBackprop (x : EReal) (fun k => (d k : EReal)) a b
      = forceClosed (x : EReal) (d 0 : EReal) (d 1 : EReal) (d 2 : EReal) a b := by
  unfold forceBackprop cotangent forceClosed
  rw [ofBits_one, ofBits_two, Ideal.ofBits_zero_f32, Fin.sum_univ_three]
  have hs : ((0 : EReal) + ((d 0 : EReal) * (d 0 : EReal) + (d 1 : EReal) * (d 1 : EReal) + (d 2 : EReal) * (d 2 : EReal)))
      = ((d 0 * d 0 + d 1 * d 1 + d 2 * d 2 : ℝ) : EReal) := by
    rw [zero_add]; push_cast; rfl
  have hk : ((0 : EReal) - (((d 0 : EReal) * (d 0 : EReal) + (d 1 : EReal) * (d 1 : EReal)) + (d 2 : EReal) * (d 2 : EReal)))
      = ((-(d 0 * d 0 + d 1 * d 1 + d 2 * d 2) : ℝ) : EReal) := by
    rw [zero_sub]; push_cast; rfl
  rw [hs, hk, ← EReal.coe_neg, Ideal.exp_coe]
  set e : ℝ := Real.exp (-(d 0 * d 0 + d 1 * d 1 + d 2 * d 2)) with he
  rw [← EReal.coe_mul, ← EReal.coe_mul, ← EReal.coe_neg, ← EReal.coe_mul, ← EReal.coe_add, ← EReal.coe_mul,
    ← EReal.coe_mul, ← EReal.coe_add, ← EReal.coe_neg, ← EReal.coe_mul, ← EReal.coe_sub, ← EReal.coe_mul,
    ← EReal.coe_mul]
  congr 1
  ring

/-! ## The force on every edge -/

/-- The edge arrays' shapes: `[E, 3]` displacements and forces, `[E]` coefficients, `E = 3200000`. -/
abbrev SE3 : Shape := ⟨2, ![3200000, 3]⟩
abbrev SE : Shape := ⟨1, ![3200000]⟩

/-- The force array `[E, 3]` of displacements `d` and coefficients `a`, `b`, in the kernel's arrangement: entry
    `(e, k)` is the closed form at `x = d[e, k]` over edge `e`'s three displacements and its two coefficients. -/
def edgeForce (d : FVec Ideal SE3 .f32) (a b : FVec Ideal SE .f32) : FVec Ideal SE3 .f32 := fun i =>
  forceClosed (d i) (d (ix2 (i 0) (0 : Fin 3))) (d (ix2 (i 0) (1 : Fin 3))) (d (ix2 (i 0) (2 : Fin 3)))
    (a (ix1 (i 0))) (b (ix1 (i 0)))

theorem edgeForce_apply (d : FVec Ideal SE3 .f32) (a b : FVec Ideal SE .f32) (e : Fin 3200000) (k : Fin 3) :
    edgeForce d a b (ix2 e k)
      = forceClosed (d (ix2 e k)) (d (ix2 e (0 : Fin 3))) (d (ix2 e (1 : Fin 3))) (d (ix2 e (2 : Fin 3)))
          (a (ix1 e)) (b (ix1 e)) := rfl

end Cert.Force

end
-- ==== Proof.RefForce.lean ====
/-
  The reference's force array is the closed form.

  The reference's stage `%18` — the negated gradient of the energy — read at entry `(e, k)` is the back-propagated
  arrangement over edge `e`: the squared length is the host's sum of `d[e, ·]²` over the three components from the
  initial value `0.0`, the cotangent broadcasts along the component axis, and the product rule contributes
  `d·g + g·d`. On real inputs that is the closed form (`forceBackprop_eq_forceClosed`).
-/
import proofs.«114977_j8821862826155_1_alg».proof.Proof.Gen.ReferenceIdeal.Read
import proofs.«114977_j8821862826155_1_alg».proof.Proof.Force

noncomputable section

namespace Cert.Force

open Idealize.ShloMosaic Idealize.ShloMosaic.ValueIdx Cert.ReferenceIdeal Cert.ReferenceIdeal.Read

/-- Entry `(e, k)` of the reference's force array is the back-propagated form over edge `e`. -/
theorem refForce_apply (d : FVec Ideal S3200000x3 .f32) (a b : FVec Ideal S3200000 .f32) (e : Fin 3200000) (k : Fin 3) :
    val_main_v18 (F := Ideal) d a b (ix2 e k)
      = forceBackprop (d (ix2 e k)) (fun k' => d (ix2 e k')) (a (ix1 e)) (b (ix1 e)) := by
  have i14 : idx_main_v14 (ix2 e k) = ix1 e := funext fun ax => Fin.ext (by match ax with | ⟨0, _⟩ => rfl)
  have i1 : ∀ k' : Fin 3, idx_main_v1 (ix1 e) k' = ix2 e k' := fun k' =>
    funext fun ax => Fin.ext (by match ax with | ⟨0, _⟩ => rfl | ⟨1, _⟩ => rfl)
  rw [val_main_v18_apply, val_main_v17_apply, val_main_v15_apply, val_main_v16_apply, val_main_v14_apply, i14,
    val_main_v13_apply, val_main_v11_apply, val_main_v12_apply, val_main_v10_apply, val_main_v9_apply, val_main_v8_apply,
    val_main_cst_1_apply, val_main_v4_apply, val_main_v3_apply, val_main_v1_apply, val_main_cst_apply]
  simp only [val_main_v0_apply, i1]
  rfl

/-- On real inputs the reference's force array is `edgeForce`. -/
theorem refForce_eq (d : FVec Ideal S3200000x3 .f32) (a b : FVec Ideal S3200000 .f32)
    (hd : ∀ i, ∃ r : ℝ, d i = (r : EReal)) (ha : ∀ i, ∃ r : ℝ, a i = (r : EReal)) (hb : ∀ i, ∃ r : ℝ, b i = (r : EReal)) :
    val_main_v18 (F := Ideal) d a b = edgeForce d a b := by
  funext i
  obtain ⟨e, k, rfl⟩ : ∃ (e : Fin 3200000) (k : Fin 3), i = ix2 e k := ⟨i 0, i 1, eq_ix2 i⟩
  rw [refForce_apply, edgeForce_apply]
  choose rd hrd using hd
  obtain ⟨ra, hra⟩ := ha (ix1 e)
  obtain ⟨rb, hrb⟩ := hb (ix1 e)
  have hfun : (fun k' : Fin 3 => d (ix2 e k')) = fun k' => ((rd (ix2 e k') : ℝ) : EReal) := funext fun k' => hrd _
  rw [hfun, hrd (ix2 e k), hrd (ix2 e (0 : Fin 3)), hrd (ix2 e (1 : Fin 3)), hrd (ix2 e (2 : Fin 3)), hra, hrb]
  exact forceBackprop_eq_forceClosed (rd (ix2 e k)) ra rb (fun k' => rd (ix2 e k'))

end Cert.Force

end
-- ==== Proof.KernelBlock.lean ====
/-
  One grid point of the kernel: the stored block, entry by entry.

  The body loads a `[3, 80000]` block of transposed displacements and two `[1, 80000]` blocks of coefficients, and stores
  `disp · (2 · (b · exp(0 - r²) - a))` with `r²` the sum of the squares of the block's three rows and the coefficient row
  broadcast over the three rows. Entry `(p, q)` of the stored block is therefore the closed form at `x = disp[p, q]`
  over column `q`'s three displacements and its two coefficients.
-/
import proofs.«114977_j8821862826155_1_alg».proof.Proof.Gen.KernelIdeal.Skeleton
import proofs.«114977_j8821862826155_1_alg».proof.Proof.Force
import Idealize.ShloMosaic.Lib.Pipeline.Value
import Idealize.ShloMosaic.Lib.ValueLayout

noncomputable section

namespace Cert.Force

open Idealize.ShloMosaic Idealize.ShloMosaic.ValueIdx Cert.KernelIdeal Cert.KernelIdeal.Gen

/-- The exponential of a vector at an index is the exponential of the element. -/
theorem exp_apply {s : Shape} (v : FVec Ideal s .f32) (i : s.Idx) : exp v i = Ideal.exp (v i) := rfl

/-- Entry `(p, q)` of the block one grid point stores. -/
theorem payload_apply (x0 : Vec Ideal S3x80000 .f32) (x1 x2 : Vec Ideal S1x80000 .f32) (p : Fin 3) (q : Fin 80000) :
    k0_pay1 (F := Ideal) x0 x1 x2 (ix2 p q)
      = forceClosed (x0 (ix2 p q)) (x0 (ix2 (0 : Fin 3) q)) (x0 (ix2 (1 : Fin 3) q)) (x0 (ix2 (2 : Fin 3) q))
          (x1 (ix2 (0 : Fin 1) q)) (x2 (ix2 (0 : Fin 1) q)) := by
  unfold k0_pay1 forceClosed
  rw [mulf_apply, broadcastTo_1b_ab_apply]
  simp only [shapeCast_self, mulf_apply, subf_apply, addf_apply, broadcast_apply, exp_apply]
  rw [slice2_axis0_apply 0 x0 _ (0 : Fin 1) q (0 : Fin 3) rfl, slice2_axis0_apply 1 x0 _ (0 : Fin 1) q (1 : Fin 3) rfl,
    slice2_axis0_apply 2 x0 _ (0 : Fin 1) q (2 : Fin 3) rfl]
  rfl

end Cert.Force

end
-- ==== Proof.KernelArray.lean ====
/-
  From the grid points' blocks to the kernel's output array.

  The output is `[3, 3200000]`, written in 40 blocks of `[3, 80000]`: point `t` reads columns `80000·t … 80000·t + 79999` of
  the transposed displacements and of the two coefficient rows and writes the same columns of the output. So what
  point `t` writes back is block `t` of ONE whole-array function — `forceT`, the closed form at every `(k, n)` over
  column `n` — and, the 40 blocks covering every column, the array ends holding `forceT`.
-/
import proofs.«114977_j8821862826155_1_alg».proof.Proof.Gen.KernelIdeal.Frame
import proofs.«114977_j8821862826155_1_alg».proof.Proof.KernelBlock

set_option maxRecDepth 16384

noncomputable section

namespace Cert.Force

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The kernel's output as one function of the three arrays the region reads: entry `(k, n)` is the closed form at
    `x = D[k, n]` over column `n`. -/
def forceT (D : FVec Ideal S3x3200000 .f32) (A B : FVec Ideal S1x3200000 .f32) : FVec Ideal S3x3200000 .f32 := fun i =>
  forceClosed (D i) (D (ix2 (0 : Fin 3) (i 1))) (D (ix2 (1 : Fin 3) (i 1))) (D (ix2 (2 : Fin 3) (i 1)))
    (A (ix2 (0 : Fin 1) (i 1))) (B (ix2 (0 : Fin 1) (i 1)))

theorem forceT_apply (D : FVec Ideal S3x3200000 .f32) (A B : FVec Ideal S1x3200000 .f32) (k : Fin 3) (n : Fin 3200000) :
    forceT D A B (ix2 k n)
      = forceClosed (D (ix2 k n)) (D (ix2 (0 : Fin 3) n)) (D (ix2 (1 : Fin 3) n)) (D (ix2 (2 : Fin 3) n))
          (A (ix2 (0 : Fin 1) n)) (B (ix2 (0 : Fin 1) n)) := rfl

/-- The body's accesses start at the origin of their buffers. -/
theorem origin : (![0, 0] : Fin 2 → Nat) = fun _ => 0 := funext fun a => by fin_cases a <;> rfl

/-- The four index maps, decided over the 40 points: row block `0`, column block `t`. -/
theorem blockIdx : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val ∧ t.val < 40 :=
  (by decide +kernel : ∀ t : Fin grid0.N, _)

/-- Every column block is some point's. -/
theorem blockOnto : ∀ b : Fin 40, ∃ t : Fin cfg0.N, win0_3.index t = ![0, b.val] :=
  (by decide +kernel : ∀ b : Fin 40, ∃ t : Fin grid0.N, win0_3.index t = ![0, b.val])

/-- What point `t` writes back is block `t` of `forceT` of the arrays as the region finds them. -/
theorem flushed_eq (c : Dev nD) (t : Fin cfg0.N) :
    (dats m 0 c).flushed 3 t
      = ((cfg0.win 3).blk t).view.read (Elt Ideal) (forceT (V m c main_v0) (V m c main_v1) (V m c main_v2)) := by
  show (cfg0.win 3).cut (grid0.coords t) ((dats m 0 c).after 3 t) = _
  rw [after0_3]
  unfold out0_3
  rw [View.canon_unit_zero origin]
  simp only [View.ld_unit_zero (S := S3x80000) origin, View.ld_unit_zero (S := S1x80000) origin]
  obtain ⟨e00, e01, e10, e11, e20, e21, e30, e31, ht⟩ := blockIdx t
  funext j
  obtain ⟨p, q, rfl⟩ : ∃ (p : Fin 3) (q : Fin 80000), j = ix2 p q := ⟨j 0, j 1, eq_ix2 j⟩
  have hq : q.val < 80000 := q.isLt
  have hp : p.val < 3 := p.isLt
  let n : Fin 3200000 := ⟨t.val * 80000 + q.val, by omega⟩
  have h0 : ∀ p' : Fin 3, ((cfg0.win 0).blk t).view.emb (ix2 p' q) = ix2 p' n := fun p' => by
    have hp' : p'.val < 3 := p'.isLt
    funext a; apply Fin.ext
    match a with
    | ⟨0, _⟩ => show win0_0.index t (0 : Fin 2) * 3 + 1 * p'.val = p'.val; omega
    | ⟨1, _⟩ => show win0_0.index t (1 : Fin 2) * 80000 + 1 * q.val = t.val * 80000 + q.val; omega
  have h1 : ((cfg0.win 1).blk t).view.emb (ix2 (0 : Fin 1) q) = ix2 (0 : Fin 1) n := by
    funext a; apply Fin.ext
    match a with
    | ⟨0, _⟩ => show win0_1.index t (0 : Fin 2) * 1 + 1 * 0 = 0; omega
    | ⟨1, _⟩ => show win0_1.index t (1 : Fin 2) * 80000 + 1 * q.val = t.val * 80000 + q.val; omega
  have h2 : ((cfg0.win 2).blk t).view.emb (ix2 (0 : Fin 1) q) = ix2 (0 : Fin 1) n := by
    funext a; apply Fin.ext
    match a with
    | ⟨0, _⟩ => show win0_2.index t (0 : Fin 2) * 1 + 1 * 0 = 0; omega
    | ⟨1, _⟩ => show win0_2.index t (1 : Fin 2) * 80000 + 1 * q.val = t.val * 80000 + q.val; omega
  have h3 : ((cfg0.win 3).blk t).view.emb (ix2 p q) = ix2 p n := by
    funext a; apply Fin.ext
    match a with
    | ⟨0, _⟩ => show win0_3.index t (0 : Fin 2) * 3 + 1 * p.val = p.val; omega
    | ⟨1, _⟩ => show win0_3.index t (1 : Fin 2) * 80000 + 1 * q.val = t.val * 80000 + q.val; omega
  show k0_pay1 (F := Ideal) (iblk m c 0 t) (iblk m c 1 t) (iblk m c 2 t) (ix2 p q)
    = forceT (V m c main_v0) (V m c main_v1) (V m c main_v2) (((cfg0.win 3).blk t).view.emb (ix2 p q))
  refine (payload_apply (iblk m c 0 t) (iblk m c 1 t) (iblk m c 2 t) p q).trans ?_
  rw [h3, forceT_apply]
  show forceClosed (V m c main_v0 (((cfg0.win 0).blk t).view.emb (ix2 p q)))
      (V m c main_v0 (((cfg0.win 0).blk t).view.emb (ix2 (0 : Fin 3) q)))
      (V m c main_v0 (((cfg0.win 0).blk t).view.emb (ix2 (1 : Fin 3) q)))
      (V m c main_v0 (((cfg0.win 0).blk t).view.emb (ix2 (2 : Fin 3) q)))
      (V m c main_v1 (((cfg0.win 1).blk t).view.emb (ix2 (0 : Fin 1) q)))
      (V m c main_v2 (((cfg0.win 2).blk t).view.emb (ix2 (0 : Fin 1) q))) = _
  rw [h0, h0, h0, h0, h1, h2]

/-- An index of the output is in point `t`'s block iff each coordinate is in the block's range on its axis. -/
theorem mem_blk (t : Fin cfg0.N) (i : S3x3200000.Idx) :
    i ∈ ((cfg0.win 3).blk t).view.set ↔ ∀ a : Fin 2, win0_3.index t a * S3x80000.size a ≤ (i a).val
      ∧ (i a).val < win0_3.index t a * S3x80000.size a + S3x80000.size a := by
  show i ∈ ((View.whole main_v3).slice (win0_3.rect t)).set ↔ _
  rw [View.set_slice_whole, Rect.mem_set_unit]
  exact Iff.rfl

/-- Every entry of the output is in some written block: column `n` is in block `n / 80000`. -/
theorem covered (i : S3x3200000.Idx) :
    ∃ t : Fin cfg0.N, (cfg0.win 3).flush t = true ∧ i ∈ ((cfg0.win 3).blk t).view.set := by
  have hi0 : (i 0).val < 3 := (i 0).isLt
  have hi1 : (i 1).val < 3200000 := (i 1).isLt
  obtain ⟨t, ht⟩ := blockOnto ⟨(i 1).val / 80000, by omega⟩
  have q0 : win0_3.index t (0 : Fin 2) = 0 := congrFun ht 0
  have q1 : win0_3.index t (1 : Fin 2) = (i 1).val / 80000 := congrFun ht 1
  refine ⟨t, flush0_3 t, ?_⟩
  rw [mem_blk]
  intro a
  match a with
  | ⟨0, _⟩ => show win0_3.index t (0 : Fin 2) * 3 ≤ (i 0).val ∧ (i 0).val < win0_3.index t (0 : Fin 2) * 3 + 3; omega
  | ⟨1, _⟩ =>
    show win0_3.index t (1 : Fin 2) * 80000 ≤ (i 1).val ∧ (i 1).val < win0_3.index t (1 : Fin 2) * 80000 + 80000
    omega

/-- The output array after the run is `forceT` of the arrays as the region finds them. -/
theorem outArray_eq (c : Dev nD) :
    (dats m 0 c).arrAt 3 cfg0.N = forceT (V m c main_v0) (V m c main_v1) (V m c main_v2) :=
  (dats m 0 c).arrAt_eq_of_cover 3 _ (fun t _ => flushed_eq m c t) covered

end Cert.Force

end
-- ==== Proof.KernelHost.lean ====
/-
  The host operations around the kernel's region.

  Before the region the displacements are transposed to `[3, E]` and the two coefficient arrays reshaped to `[1, E]`;
  these are the three arrays the region reads. After it the `[3, E]` output is transposed back to `[E, 3]` and
  scatter-added twice into zero-filled `[100000, 3]` arrays — once by each row of the edge index, each row sliced,
  reshaped to `[E]` and broadcast to `[E, 1]` — and the two sums are subtracted. Reading the entries of the transposes
  and reshapes, the `[E, 3]` array that is scattered is `edgeForce` of the program's inputs.
-/
import proofs.«114977_j8821862826155_1_alg».proof.Proof.KernelArray
import Idealize.ShloMosaic.Lib.StableHlo.Run

set_option maxRecDepth 16384

noncomputable section

namespace Cert.Force

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ)

/-! ## Before the region -/

/-- The region finds the displacements transposed, -/
theorem V_disp (c : Dev nD) : (V m c main_v0 : S3x3200000.Idx → EReal)
    = transpose S3x3200000 [1, 0] (m ((c : Thread nD τ).loc main_arg0)) transposes_S3200000x3_S3x3200000_1_0 := by
  show StableHlo.after hostOps0 (fun b => m (c, b)) (Proc.devRef .tc main_v0) = _
  after_results

/-- the coefficients `a` as one row, -/
theorem V_a (c : Dev nD) : (V m c main_v1 : S1x3200000.Idx → EReal)
    = shapeCast _ (m ((c : Thread nD τ).loc main_arg1)) shapeCasts_S3200000_S1x3200000 := by
  show StableHlo.after hostOps0 (fun b => m (c, b)) (Proc.devRef .tc main_v1) = _
  after_results
  rfl

/-- and the coefficients `b` as one row. -/
theorem V_b (c : Dev nD) : (V m c main_v2 : S1x3200000.Idx → EReal)
    = shapeCast _ (m ((c : Thread nD τ).loc main_arg2)) shapeCasts_S3200000_S1x3200000 := by
  show StableHlo.after hostOps0 (fun b => m (c, b)) (Proc.devRef .tc main_v2) = _
  after_results
  rfl

/-! ## The scattered array -/

/-- The kernel's output transposed back to `[E, 3]` is `edgeForce` of the inputs: entry `(e, k)` reads the output at
    `(k, e)`, whose closed form is over column `e` of the transposed displacements — row `e` of the displacements — and
    entry `e` of each coefficient array. -/
theorem forceT_transposed (c : Dev nD) :
    transpose S3200000x3 [1, 0] (forceT (V m c main_v0) (V m c main_v1) (V m c main_v2)) transposes_S3x3200000_S3200000x3_1_0
      = edgeForce (m ((c : Thread nD τ).loc main_arg0)) (m ((c : Thread nD τ).loc main_arg1)) (m ((c : Thread nD τ).loc main_arg2)) := by
  funext i
  obtain ⟨e, k, rfl⟩ : ∃ (e : Fin 3200000) (k : Fin 3), i = ix2 e k := ⟨i 0, i 1, eq_ix2 i⟩
  rw [transpose_ix2_apply, forceT_apply, edgeForce_apply, V_disp, V_a, V_b]
  rw [transpose_ix2_apply, transpose_ix2_apply, transpose_ix2_apply, transpose_ix2_apply, shapeCast_a_1a_apply,
    shapeCast_a_1a_apply]

/-! ## After the region -/

/-- The net force on every atom, `[100000, 3]`: the edge forces scatter-added into zeros by the edges' source atoms
    (row 0 of the edge index) minus the same by their destination atoms (row 1). -/
def atomForce (d : FVec Ideal S3200000x3 .f32) (a b : FVec Ideal S3200000 .f32) (ei : IVec S2x3200000 32) :
    FVec Ideal S100000x3 .f32 :=
  subf
    (Host.scatterAdd scatter_S100000x3_S3200000x1_S3200000x3_1_0_0_1
      (broadcastInDim S100000x3 ![] bcast_S_S100000x3 (constant S_ .f32 0x00000000#32))
      (broadcastInDim S3200000x1 ![0] bcast_S3200000_S3200000x1_0
        (shapeCast _ (extractStridedSlice S1x3200000 ![0, 0] ei slices_S2x3200000_S1x3200000_0_0) shapeCasts_S1x3200000_S3200000))
      (edgeForce d a b))
    (Host.scatterAdd scatter_S100000x3_S3200000x1_S3200000x3_1_0_0_1
      (broadcastInDim S100000x3 ![] bcast_S_S100000x3 (constant S_ .f32 0x00000000#32))
      (broadcastInDim S3200000x1 ![0] bcast_S3200000_S3200000x1_0
        (shapeCast _ (extractStridedSlice S1x3200000 ![1, 0] ei slices_S2x3200000_S1x3200000_1_0) shapeCasts_S1x3200000_S3200000))
      (edgeForce d a b))

/-- The program's result — the two scatter-adds of the transposed output, subtracted — is `atomForce` of its inputs. -/
theorem result_eq (c : Dev nD) :
    Pipeline.afterTail₀ cfgs (dats m) 0 (V0 m) [hostOps1] c main_v15
      = atomForce (m ((c : Thread nD τ).loc main_arg0)) (m ((c : Thread nD τ).loc main_arg1))
          (m ((c : Thread nD τ).loc main_arg2)) (m ((c : Thread nD τ).loc main_arg3)) := by
  have eOut : Pipeline.withArrays (cfgs 0).spec c (V0 m c) (fun w => (dats m 0 c).arrAt w (cfgs 0).N) (Proc.devRef .tc main_v3)
      = forceT (V m c main_v0) (V m c main_v1) (V m c main_v2) :=
    (Pipeline.withArrays_arr spec0 launch0.win.arr_inj c _ _ 3).trans (outArray_eq m c)
  have eIdx : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v15) = _
  after_results
  rw [eOut, eIdx, forceT_transposed]
  rfl

/-! ## The kernel program's run, read -/

/-- Every weakly fair execution of the kernel program ends with its result at `atomForce` of the inputs and the inputs
    unchanged: the frame run, whose post holds the host tail's results, with the result read by `result_eq`. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v15)
          = atomForce (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Force

end
-- ==== Proof.RefResult.lean ====
/-
  The reference's result is `atomForce`.

  The reference scatter-adds ITS force array — the negated gradient — by the same two rows of the edge index, through
  the same slices, reshapes and broadcasts and the same scatter dimensions, into the same zero arrays, and subtracts.
  On real inputs its force array is `edgeForce` (`refForce_eq`), so its result is the kernel program's function
  `atomForce` of the same inputs: the two tails are one term.
-/
import proofs.«114977_j8821862826155_1_alg».proof.Proof.RefForce
import proofs.«114977_j8821862826155_1_alg».proof.Proof.KernelHost

noncomputable section

namespace Cert.Force

open Idealize.ShloMosaic

/-- On real inputs the reference's last stage is `atomForce` of its arguments. -/
theorem refResult_eq (d : FVec Ideal Cert.ReferenceIdeal.S3200000x3 .f32) (a b : FVec Ideal Cert.ReferenceIdeal.S3200000 .f32)
    (ei : IVec Cert.ReferenceIdeal.S2x3200000 32)
    (hd : ∀ i, ∃ r : ℝ, d i = (r : EReal)) (ha : ∀ i, ∃ r : ℝ, a i = (r : EReal)) (hb : ∀ i, ∃ r : ℝ, b i = (r : EReal)) :
    Cert.ReferenceIdeal.Read.val_main_v29 (F := Ideal) d a b ei = atomForce d a b ei := by
  unfold Cert.ReferenceIdeal.Read.val_main_v29 Cert.ReferenceIdeal.Read.val_main_v23 Cert.ReferenceIdeal.Read.val_main_v28
  rw [refForce_eq d a b hd ha hb]
  rfl

end Cert.Force

end
-- ==== Proof.lean ====
/-
  Net forces on atoms from per-edge forces: the kernel program and the reference compute the same extended reals.

  Both programs take displacements `d : [E, 3]`, coefficients `a, b : [E]` and an edge index `[2, E]`, form the force
  on every edge, scatter-add it into `[100000, 3]` zeros once by each row of the edge index, and subtract.

  * The kernel program transposes `d`, evaluates the closed form `dₖ · (2 · (b · exp(0 - r²) - a))` with
    `r² = (d₀² + d₁²) + d₂²` in 40 column blocks, and transposes back (`KernelBlock`, `KernelArray`, `KernelHost`).
  * The reference differentiates the energy `Σ a·r² + b·exp(-r²)` in reverse mode: `-(dₖ·g + g·dₖ)` with
    `g = -((b·1)·exp(-(0 + Σₖ dₖ²))) + a·1` (`RefForce`).

  Under the precondition every entry of `d`, `a`, `b` is a real number (`Finite`), and on real numbers the two forms
  are one polynomial in `dₖ, a, b, exp(-r²)` (`Force`). The scatter-adds and the subtraction are the same operations
  of the same index arrays on both sides (`RefResult`), so the results agree entry by entry.

  The three frames are the generated ones (the reference's is its run with the result dropped); the idealization
  rewrote nothing, so `preserves` is trivial.
-/
import proofs.«114977_j8821862826155_1_alg».proof.Defs
import proofs.«114977_j8821862826155_1_alg».proof.Proof.Gen.Kernel
import proofs.«114977_j8821862826155_1_alg».proof.Proof.Gen.Kernel.Skeleton
import proofs.«114977_j8821862826155_1_alg».proof.Proof.Gen.Kernel.Launch
import proofs.«114977_j8821862826155_1_alg».proof.Proof.Gen.Kernel.Points
import proofs.«114977_j8821862826155_1_alg».proof.Proof.Gen.Kernel.Frame
import proofs.«114977_j8821862826155_1_alg».proof.Proof.Gen.KernelIdeal
import proofs.«114977_j8821862826155_1_alg».proof.Proof.Gen.KernelIdeal.Skeleton
import proofs.«114977_j8821862826155_1_alg».proof.Proof.Gen.KernelIdeal.Launch
import proofs.«114977_j8821862826155_1_alg».proof.Proof.Gen.KernelIdeal.Points
import proofs.«114977_j8821862826155_1_alg».proof.Proof.Gen.KernelIdeal.Frame
import proofs.«114977_j8821862826155_1_alg».proof.Proof.Gen.ReferenceIdeal
import proofs.«114977_j8821862826155_1_alg».proof.Proof.Gen.Pre_finite_inputs
import proofs.«114977_j8821862826155_1_alg».proof.Proof.Gen.ReferenceIdeal.Run
import proofs.«114977_j8821862826155_1_alg».proof.Proof.Gen.ReferenceIdeal.Read
import proofs.«114977_j8821862826155_1_alg».proof.Proof.Finite
import proofs.«114977_j8821862826155_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `atomForce` of the kernel program's inputs: the kernel's by its run read (`kernel_run`), the
    reference's by its generated run, its arguments rewritten to the kernel's (they agree) and its last stage read on
    real inputs (`refResult_eq`, the precondition giving the reals). -/
theorem algebraic : Cert.algebraic_KernelIdeal_ReferenceIdeal := by
  intro m ρ m' ρ' hpre hagree
  refine ⟨_, Cert.Force.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hd, ha, hb⟩ := Cert.Force.reals_of_pre _ _ _ _ _ (hpre c)
  rw [(hagree c).1, (hagree c).2.1, (hagree c).2.2.1, (hagree c).2.2.2.1, Cert.ReferenceIdeal.Read.val_main_v29_eq]
  exact Cert.Force.refResult_eq _ _ _ _ hd ha hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
